-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x500000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S50000x128 : Shape := ⟨2, ![50000, 128]⟩
abbrev S5000x256 : Shape := ⟨2, ![5000, 256]⟩
abbrev S5000x128 : Shape := ⟨2, ![5000, 128]⟩
abbrev S550000x128 : Shape := ⟨2, ![550000, 128]⟩
abbrev S1x128 : Shape := ⟨2, ![1, 128]⟩
abbrev S50000x64 : Shape := ⟨2, ![50000, 64]⟩
abbrev S5000x64 : Shape := ⟨2, ![5000, 64]⟩
abbrev S550000x64 : Shape := ⟨2, ![550000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S50000, .i32⟩
  | .hbm, ⟨11, _⟩ => ⟨S550000, .i32⟩
  | .hbm, ⟨12, _⟩ => ⟨S550000, .i32⟩
  | .hbm, ⟨13, _⟩ => ⟨S_, .f32⟩
  | .hbm, ⟨14, _⟩ => ⟨S550000, .f32⟩
  | .hbm, ⟨15, _⟩ => ⟨S_, .f32⟩
  | .hbm, ⟨16, _⟩ => ⟨S50000, .f32⟩
  | .hbm, ⟨17, _⟩ => ⟨S550000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S550000, .i32⟩
  | .hbm, ⟨32, _⟩ => ⟨S550000, .i1⟩
  | .hbm, ⟨33, _⟩ => ⟨S_, .i32⟩
  | .hbm, ⟨34, _⟩ => ⟨S550000, .i32⟩
  | .hbm, ⟨35, _⟩ => ⟨S550000, .i32⟩
  | .hbm, ⟨36, _⟩ => ⟨S550000, .i32⟩
  | .hbm, ⟨37, _⟩ => ⟨S550000x1, .i32⟩
  | .hbm, ⟨38, _⟩ => ⟨S550000, .f32⟩
  | .hbm, ⟨39, _⟩ => ⟨S_, .i32⟩
  | .hbm, ⟨40, _⟩ => ⟨S550000, .i32⟩
  | .hbm, ⟨41, _⟩ => ⟨S550000, .i1⟩
  | .hbm, ⟨42, _⟩ => ⟨S_, .i32⟩
  | .hbm, ⟨43, _⟩ => ⟨S550000, .i32⟩
  | .hbm, ⟨44, _⟩ => ⟨S550000, .i32⟩
  | .hbm, ⟨45, _⟩ => ⟨S550000, .i32⟩
  | .hbm, ⟨46, _⟩ => ⟨S550000x1, .i32⟩
  | .hbm, ⟨47, _⟩ => ⟨S550000, .f32⟩
  | .hbm, ⟨48, _⟩ => ⟨S550000, .f32⟩
  | .hbm, ⟨49, _⟩ => ⟨S50000x128, .f32⟩
  | .hbm, ⟨50, _⟩ => ⟨S_, .i32⟩
  | .hbm, ⟨51, _⟩ => ⟨S550000, .i32⟩
  | .hbm, ⟨52, _⟩ => ⟨S550000, .i1⟩
  | .hbm, ⟨53, _⟩ => ⟨S_, .i32⟩
  | .hbm, ⟨54, _⟩ => ⟨S550000, .i32⟩
  | .hbm, ⟨55, _⟩ => ⟨S550000, .i32⟩
  | .hbm, ⟨56, _⟩ => ⟨S550000, .i32⟩
  | .hbm, ⟨57, _⟩ => ⟨S550000x1, .i32⟩
  | .hbm, ⟨58, _⟩ => ⟨S550000x128, .f32⟩
  | .hbm, ⟨59, _⟩ => ⟨S550000x1, .f32⟩
  | .hbm, ⟨60, _⟩ => ⟨S550000x128, .f32⟩
  | .hbm, ⟨61, _⟩ => ⟨S550000x128, .f32⟩
  | .hbm, ⟨62, _⟩ => ⟨S_, .f32⟩
  | .hbm, ⟨63, _⟩ => ⟨S50000x128, .f32⟩
  | .hbm, ⟨64, _⟩ => ⟨S550000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x64, .f32⟩
  | .hbm, ⟨69, _⟩ => ⟨S_, .i32⟩
  | .hbm, ⟨70, _⟩ => ⟨S550000, .i32⟩
  | .hbm, ⟨71, _⟩ => ⟨S550000, .i1⟩
  | .hbm, ⟨72, _⟩ => ⟨S_, .i32⟩
  | .hbm, ⟨73, _⟩ => ⟨S550000, .i32⟩
  | .hbm, ⟨74, _⟩ => ⟨S550000, .i32⟩
  | .hbm, ⟨75, _⟩ => ⟨S550000, .i32⟩
  | .hbm, ⟨76, _⟩ => ⟨S550000x1, .i32⟩
  | .hbm, ⟨77, _⟩ => ⟨S550000x64, .f32⟩
  | .hbm, ⟨78, _⟩ => ⟨S550000x1, .f32⟩
  | .hbm, ⟨79, _⟩ => ⟨S550000x64, .f32⟩
  | .hbm, ⟨80, _⟩ => ⟨S550000x64, .f32⟩
  | .hbm, ⟨81, _⟩ => ⟨S_, .f32⟩
  | .hbm, ⟨82, _⟩ => ⟨S50000x64, .f32⟩
  | .hbm, ⟨83, _⟩ => ⟨S550000x1, .i32⟩
  | .hbm, ⟨84, _⟩ => ⟨S50000x64, .f32⟩
  | .hbm, ⟨85, _⟩ => ⟨S1x64, .f32⟩
  | .hbm, ⟨86, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S550000x1_S550000x64_0_1 : S550000x1.BroadcastsInDim S550000x64 (![0, 1] : Fin 2 → Fin S550000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S5000x256_S256x128_S5000x128_1_0_0_1_n_n_wf : DotDims.WF S5000x256 S256x128 S5000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S5000x128_S128x64_S5000x64_1_0_0_1_n_n_wf : DotDims.WF S5000x128 S128x64 S5000x64 [1] [0] [0] [1] [] []
  gather_S50000x64_S550000x1_S550000x64_1_0_n_n_0_1_164_wf : GatherDims.WF S50000x64 S550000x1 S550000x64 [1] [0] [] [0] [] 1 ![1, 64]
  scatter_S50000x64_S550000x1_S550000x64_1_0_0_1_wf : ScatterDims.WF S50000x64 S550000x1 S550000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S550000x1_S550000x64_1_0_n_n_0_1_164 : GatherDims S50000x64 S550000x1 S550000x64 where
  offsetDims := [1]
  collapsedSliceDims := [0]
  operandBatchingDims := []
  startIndicesBatchingDims := []
  startIndexMap := [0]
  indexVectorDim := 1
  sliceSizes := ![1, 64]
  wf := gather_S50000x64_S550000x1_S550000x64_1_0_n_n_0_1_164_wf
def scatter_S50000x64_S550000x1_S550000x64_1_0_0_1 : ScatterDims S50000x64 S550000x1 S550000x64 where
  updateWindowDims := [1]
  insertedWindowDims := [0]
  scatterDimsToOperandDims := [0]
  indexVectorDim := 1
  wf := scatter_S50000x64_S550000x1_S550000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S50000x128 : Shape := ⟨2, ![50000, 128]⟩
abbrev S50000 : Shape := ⟨1, ![50000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩
abbrev S50000x64 : Shape := ⟨2, ![50000, 64]⟩
abbrev S550000x64 : Shape := ⟨2, ![550000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S50000x256, .f32⟩
  | 1 => ⟨S2x500000, .i32⟩
  | 2 => ⟨S256x128, .f32⟩
  | 3 => ⟨S128, .f32⟩
  | 4 => ⟨S128x64, .f32⟩
  | 5 => ⟨S64, .f32⟩
  | 6 => ⟨S1x500000, .i32⟩
  | 7 => ⟨S500000, .i32⟩
  | 8 => ⟨S1x500000, .i32⟩
  | 9 => ⟨S500000, .i32⟩
  | 10 => ⟨S50000x128, .f32⟩
  | 11 => ⟨S50000, .i32⟩
  | 12 => ⟨S550000, .i32⟩
  | 13 => ⟨S550000, .i32⟩
  | 14 => ⟨S_, .f32⟩
  | 15 => ⟨S550000, .f32⟩
  | 16 => ⟨S_, .f32⟩
  | 17 => ⟨S50000, .f32⟩
  | 18 => ⟨S550000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S550000, .i32⟩
  | 33 => ⟨S550000, .i1⟩
  | 34 => ⟨S_, .i32⟩
  | 35 => ⟨S550000, .i32⟩
  | 36 => ⟨S550000, .i32⟩
  | 37 => ⟨S550000, .i32⟩
  | 38 => ⟨S550000x1, .i32⟩
  | 39 => ⟨S550000, .f32⟩
  | 40 => ⟨S_, .i32⟩
  | 41 => ⟨S550000, .i32⟩
  | 42 => ⟨S550000, .i1⟩
  | 43 => ⟨S_, .i32⟩
  | 44 => ⟨S550000, .i32⟩
  | 45 => ⟨S550000, .i32⟩
  | 46 => ⟨S550000, .i32⟩
  | 47 => ⟨S550000x1, .i32⟩
  | 48 => ⟨S550000, .f32⟩
  | 49 => ⟨S550000, .f32⟩
  | 50 => ⟨S_, .i32⟩
  | 51 => ⟨S550000, .i32⟩
  | 52 => ⟨S550000, .i1⟩
  | 53 => ⟨S_, .i32⟩
  | 54 => ⟨S550000, .i32⟩
  | 55 => ⟨S550000, .i32⟩
  | 56 => ⟨S550000, .i32⟩
  | 57 => ⟨S550000x1, .i32⟩
  | 58 => ⟨S550000x128, .f32⟩
  | 59 => ⟨S550000x1, .f32⟩
  | 60 => ⟨S550000x128, .f32⟩
  | 61 => ⟨S550000x128, .f32⟩
  | 62 => ⟨S_, .f32⟩
  | 63 => ⟨S50000x128, .f32⟩
  | 64 => ⟨S550000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x64, .f32⟩
  | 73 => ⟨S50000, .i32⟩
  | 74 => ⟨S550000, .i32⟩
  | 75 => ⟨S550000, .i32⟩
  | 76 => ⟨S_, .f32⟩
  | 77 => ⟨S550000, .f32⟩
  | 78 => ⟨S_, .f32⟩
  | 79 => ⟨S50000, .f32⟩
  | 80 => ⟨S550000x1, .i32⟩
  | 81 => ⟨S50000, .f32⟩
  | 82 => ⟨S_, .f32⟩
  | 83 => ⟨S50000, .f32⟩
  | 84 => ⟨S50000, .i1⟩
  | 85 => ⟨S_, .f32⟩
  | 86 => ⟨S50000, .f32⟩
  | 87 => ⟨S50000, .f32⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S550000, .i32⟩
  | 95 => ⟨S550000, .i1⟩
  | 96 => ⟨S_, .i32⟩
  | 97 => ⟨S550000, .i32⟩
  | 98 => ⟨S550000, .i32⟩
  | 99 => ⟨S550000, .i32⟩
  | 100 => ⟨S550000x1, .i32⟩
  | 101 => ⟨S550000, .f32⟩
  | 102 => ⟨S_, .i32⟩
  | 103 => ⟨S550000, .i32⟩
  | 104 => ⟨S550000, .i1⟩
  | 105 => ⟨S_, .i32⟩
  | 106 => ⟨S550000, .i32⟩
  | 107 => ⟨S550000, .i32⟩
  | 108 => ⟨S550000, .i32⟩
  | 109 => ⟨S550000x1, .i32⟩
  | 110 => ⟨S550000, .f32⟩
  | 111 => ⟨S550000, .f32⟩
  | 112 => ⟨S_, .i32⟩
  | 113 => ⟨S550000, .i32⟩
  | 114 => ⟨S550000, .i1⟩
  | 115 => ⟨S_, .i32⟩
  | 116 => ⟨S550000, .i32⟩
  | 117 => ⟨S550000, .i32⟩
  | 118 => ⟨S550000, .i32⟩
  | 119 => ⟨S550000x1, .i32⟩
  | 120 => ⟨S550000x64, .f32⟩
  | 121 => ⟨S550000x1, .f32⟩
  | 122 => ⟨S550000x64, .f32⟩
  | 123 => ⟨S550000x64, .f32⟩
  | 124 => ⟨S_, .f32⟩
  | 125 => ⟨S50000x64, .f32⟩
  | 126 => ⟨S550000x1, .i32⟩
  | 127 => ⟨S50000x64, .f32⟩
  | _ => ⟨S50000x256, .f32⟩

abbrev hbmTy0_1 (i : Nat) : BufTy := match i % 128 with
  | 0 => ⟨S1x64, .f32⟩
  | 1 => ⟨S50000x64, .f32⟩
  | 2 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S550000x1_S550000x64_0_1 : S550000x1.BroadcastsInDim S550000x64 (![0, 1] : Fin 2 → Fin S550000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x64_S50000x64_1_0_0_1_n_n_wf : DotDims.WF S50000x128 S128x64 S50000x64 [1] [0] [0] [1] [] []
  gather_S50000x64_S550000x1_S550000x64_1_0_n_n_0_1_164_wf : GatherDims.WF S50000x64 S550000x1 S550000x64 [1] [0] [] [0] [] 1 ![1, 64]
  scatter_S50000x64_S550000x1_S550000x64_1_0_0_1_wf : ScatterDims.WF S50000x64 S550000x1 S550000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S550000x1_S550000x64_1_0_n_n_0_1_164 : GatherDims S50000x64 S550000x1 S550000x64 where
  offsetDims := [1]
  collapsedSliceDims := [0]
  operandBatchingDims := []
  startIndicesBatchingDims := []
  startIndexMap := [0]
  indexVectorDim := 1
  sliceSizes := ![1, 64]
  wf := gather_S50000x64_S550000x1_S550000x64_1_0_n_n_0_1_164_wf
def scatter_S50000x64_S550000x1_S550000x64_1_0_0_1 : ScatterDims S50000x64 S550000x1 S550000x64 where
  updateWindowDims := [1]
  insertedWindowDims := [0]
  scatterDimsToOperandDims := [0]
  indexVectorDim := 1
  wf := scatter_S50000x64_S550000x1_S550000x64_1_0_0_1_wf

class Facts : Prop extends Facts₀ where

variable [Facts]
-- ==== Proof.Spec.lean ====
/-
  The graph convolution both programs compute, as ONE function of the six argument arrays.

  With N = 50000 nodes and the 500000 edges (s, d) read from the two rows of the edge array, followed by the N self
  loops (i, i), so 550000 pairs in all:
    deg(v)   = the number of pairs whose target is v,
    dis(v)   = deg(v)^(-1/2) where deg(v) > 0 (the degree first raised to 1e-12), and 0 elsewhere,
    norm(p)  = dis(s_p) · dis(d_p)                                 for each pair p,
    aggr(h)  = the array whose row v is the sum over the pairs p with target v of  h[s_p, :] · norm(p),
  and the network is
    out = aggr (relu (aggr (x · W1) + b1) · W2) + b2 .
  A negative index counts from the end of its axis (v + N), as indexing an array does; a gather clamps and a
  scatter-add drops what is still out of range: both programs use the same host operations for these, so the
  functions below simply name them, once, for both sides.
-/
import proofs.«171856_j73512660238643_1_alg».proof.Proof.Gen.ReferenceIdeal
import Idealize.ShloMosaic.PureOps.Ideal

noncomputable section

namespace Cert.Gcn

open Idealize.ShloMosaic Cert.ReferenceIdeal Cert.ReferenceIdeal.Facts₀

variable {F : FTy → Type} [FloatOps F]

/-- One entry per (edge or self-loop) pair, as a column: the layout an index operand takes. -/
def col {α : Type} (v : S550000.Idx → α) : S550000x1.Idx → α :=
  broadcastInDim S550000x1 ![0] bcast_S550000_S550000x1_0 v

/-- The pairs' sources: row 0 of the edge array, then 0 … N-1. -/
def src (e : IVec S2x500000 32) : IVec S550000 32 :=
  concatenate S550000 0 [⟨S500000, shapeCast _ (extractStridedSlice S1x500000 ![0, 0] e slices_S2x500000_S1x500000_0_0) shapeCasts_S1x500000_S500000⟩, ⟨S50000, iotaInDim S50000 32 0⟩] concatenates_S500000_S50000_S550000_d0

/-- The pairs' targets: row 1 of the edge array, then 0 … N-1. -/
def dst (e : IVec S2x500000 32) : IVec S550000 32 :=
  concatenate S550000 0 [⟨S500000, shapeCast _ (extractStridedSlice S1x500000 ![1, 0] e slices_S2x500000_S1x500000_1_0) shapeCasts_S1x500000_S500000⟩, ⟨S50000, iotaInDim S50000 32 0⟩] concatenates_S500000_S50000_S550000_d0

/-- A negative index counts from the end of the node axis: v + N where v < 0. -/
def wrap (v : IVec S550000 32) : IVec S550000 32 :=
  select (cmpi .slt v (broadcastInDim S550000 ![] bcast_S_S550000 (constantI S_ 32 0#32)))
    (addi v (broadcastInDim S550000 ![] bcast_S_S550000 (constantI S_ 32 50000#32))) v

/-- deg(v): one added at each pair's target. -/
def deg (e : IVec S2x500000 32) : FVec F S50000 .f32 :=
  Host.scatterAdd scatter_S50000_S550000x1_S550000_n_0_0_1
    (broadcastInDim S50000 ![] bcast_S_S50000 (constant S_ .f32 0x00000000#32)) (col (dst e))
    (broadcastInDim S550000 ![] bcast_S_S550000 (constant S_ .f32 0x3F800000#32))

/-- dis(v) = deg(v)^(-1/2) where the degree is positive (raised to 1e-12 first), 0 elsewhere. -/
def dis (e : IVec S2x500000 32) : FVec F S50000 .f32 :=
  select (cmpf (F := F) .ogt (deg (F := F) e) (broadcastInDim S50000 ![] bcast_S_S50000 (constant S_ .f32 0x00000000#32)))
    (Host.rsqrt (maximumf (deg (F := F) e) (broadcastInDim S50000 ![] bcast_S_S50000 (constant S_ .f32 0x2B8CBCCC#32))))
    (broadcastInDim S50000 ![] bcast_S_S50000 (id (constant S_ .f32 0x00000000#32)))

/-- norm(p) = dis(source of p) · dis(target of p). -/
def norm (e : IVec S2x500000 32) : FVec F S550000 .f32 :=
  mulf (Host.gather gather_S50000_S550000x1_S550000_n_0_n_n_0_1_1 (dis (F := F) e) (col (wrap (src e))))
    (Host.gather gather_S50000_S550000x1_S550000_n_0_n_n_0_1_1 (dis (F := F) e) (col (wrap (dst e))))

/-- aggr at width 128: row v is the sum over the pairs with target v of the source's row of h times the pair's norm. -/
def aggr128 (h : FVec F S50000x128 .f32) (e : IVec S2x500000 32) : FVec F S50000x128 .f32 :=
  Host.scatterAdd scatter_S50000x128_S550000x1_S550000x128_1_0_0_1
    (broadcastInDim S50000x128 ![] bcast_S_S50000x128 (constant S_ .f32 0x00000000#32)) (col (dst e))
    (mulf (Host.gather gather_S50000x128_S550000x1_S550000x128_1_0_n_n_0_1_1128 h (col (wrap (src e))))
      (broadcastInDim S550000x128 ![0, 1] bcast_S550000x1_S550000x128_0_1 (col (norm (F := F) e))))

/-- aggr at width 64. -/
def aggr64 (h : FVec F S50000x64 .f32) (e : IVec S2x500000 32) : FVec F S50000x64 .f32 :=
  Host.scatterAdd scatter_S50000x64_S550000x1_S550000x64_1_0_0_1
    (broadcastInDim S50000x64 ![] bcast_S_S50000x64 (constant S_ .f32 0x00000000#32)) (col (dst e))
    (mulf (Host.gather gather_S50000x64_S550000x1_S550000x64_1_0_n_n_0_1_164 h (col (wrap (src e))))
      (broadcastInDim S550000x64 ![0, 1] bcast_S550000x1_S550000x64_0_1 (col (norm (F := F) e))))

/-- x · W1, contracting the 256 input features. -/
def proj1 (x : FVec F S50000x256 .f32) (w : FVec F S256x128 .f32) : FVec F S50000x128 .f32 :=
  Host.dotGeneral dot_S50000x256_S256x128_S50000x128_1_0_0_1_n_n none x w

/-- h · W2, contracting the 128 hidden features. -/
def proj2 (h : FVec F S50000x128 .f32) (w : FVec F S128x64 .f32) : FVec F S50000x64 .f32 :=
  Host.dotGeneral dot_S50000x128_S128x64_S50000x64_1_0_0_1_n_n none h w

/-- A bias held as one row, added to every row (width 128). -/
def addRow128 (a : FVec F S50000x128 .f32) (b : FVec F S1x128 .f32) : FVec F S50000x128 .f32 :=
  addf a (broadcastInDim S50000x128 ![0, 1] bcast_S1x128_S50000x128_0_1 b)

/-- A bias held as one row, added to every row (width 64). -/
def addRow64 (a : FVec F S50000x64 .f32) (b : FVec F S1x64 .f32) : FVec F S50000x64 .f32 :=
  addf a (broadcastInDim S50000x64 ![0, 1] bcast_S1x64_S50000x64_0_1 b)

/-- max(a, 0), entry by entry. -/
def relu128 (a : FVec F S50000x128 .f32) : FVec F S50000x128 .f32 :=
  maximumf a (broadcastInDim S50000x128 ![] bcast_S_S50000x128 (constant S_ .f32 0x00000000#32))

/-- A vector as a one-row matrix (width 128). -/
def row128 (b : FVec F S128 .f32) : FVec F S1x128 .f32 := broadcastInDim S1x128 ![1] bcast_S128_S1x128_1 b

/-- A vector as a one-row matrix (width 64). -/
def row64 (b : FVec F S64 .f32) : FVec F S1x64 .f32 := broadcastInDim S1x64 ![1] bcast_S64_S1x64_1 b

/-- The hidden layer: relu (aggr (x · W1) + b1). -/
def hidden (x : FVec F S50000x256 .f32) (e : IVec S2x500000 32) (w1 : FVec F S256x128 .f32) (b1 : FVec F S128 .f32) :
    FVec F S50000x128 .f32 :=
  relu128 (addRow128 (aggr128 (proj1 x w1) e) (row128 b1))

/-- The network: aggr (hidden · W2) + b2. -/
def out (x : FVec F S50000x256 .f32) (e : IVec S2x500000 32) (w1 : FVec F S256x128 .f32) (b1 : FVec F S128 .f32)
    (w2 : FVec F S128x64 .f32) (b2 : FVec F S64 .f32) : FVec F S50000x64 .f32 :=
  addRow64 (aggr64 (proj2 (hidden x e w1 b1) w2) e) (row64 b2)

end Cert.Gcn

end
-- ==== Proof.Region0.lean ====
/-
  The first projection, x · W1, block by block.

  The kernel walks a grid of 10 points. Point t loads rows 5000·t … 5000·t + 4999 of x (a [5000, 256] block), the whole
  of W1 (a [256, 128] block), multiplies the two into a zero accumulator and writes the [5000, 128] product back to rows
  5000·t … 5000·t + 4999 of the result. On the extended reals the narrowing of the operands is the identity and the
  product into zero is the plain sum, so entry (p, q) of block t is the sum over k of x(5000·t + p, k) · W1(k, q): entry
  (5000·t + p, q) of the product of the whole arrays. The ten row blocks tile the 50000 rows (row r is in block
  r / 5000), so after the last point the result array is the whole product.
-/
import proofs.«171856_j73512660238643_1_alg».proof.Proof.Gen.KernelIdeal.Frame
import proofs.«171856_j73512660238643_1_alg».proof.Proof.Spec
import proofs.«171856_j73512660238643_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

/-! ## The block product read at an index -/

theorem lhs0_dot_0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs0_dot_1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhs0_dot_0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhs0_dot_1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Row (j 0) of the left block, column k. -/
abbrev lidx0_blk (j : S5000x128.Idx) (k : Fin 256) : S5000x256.Idx := fun a => match a with
  | ⟨0, _⟩ => ⟨(j 0).val, (j 0).isLt⟩
  | ⟨1, _⟩ => ⟨k.val, k.isLt⟩
/-- Row k of the right block, column (j 1). -/
abbrev ridx0_blk (j : S5000x128.Idx) (k : Fin 256) : S256x128.Idx := fun a => match a with
  | ⟨0, _⟩ => ⟨k.val, k.isLt⟩
  | ⟨1, _⟩ => ⟨(j 1).val, (j 1).isLt⟩

/-- The body's payload at (j 0, j 1): the narrowing of the operands is the identity on the extended reals, and the
    product into zero is the sum over k of x(j 0, k) · W(k, j 1). -/
theorem pay0_apply (x0 : Vec Ideal S5000x256 .f32) (x1 : Vec Ideal S256x128 .f32) (j : S5000x128.Idx) :
    k0_pay1 (F := Ideal) x0 x1 j = ∑ k : Fin 256, x0 (lidx0_blk j k) * x1 (ridx0_blk j k) := by
  unfold k0_pay1
  refine (Ideal.matmul_constant_zero_apply dot_S5000x256_S256x128_S5000x128_1_0_0_1_n_n none _ _ j).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lidx0_blk j k := funext fun a => Fin.ext (by
    match a with
    | ⟨0, _⟩ => exact lhs0_dot_0 _ _
    | ⟨1, _⟩ => exact (lhs0_dot_1 _ _).trans hk)
  have er : dot_S5000x256_S256x128_S5000x128_1_0_0_1_n_n.rhsIdx j ((ValueIdx.contrEquiv1 dot_S5000x256_S256x128_S5000x128_1_0_0_1_n_n 256 rfl rfl).symm k) = ridx0_blk j k := funext fun a => Fin.ext (by
    match a with
    | ⟨0, _⟩ => exact (rhs0_dot_0 _ _).trans hk
    | ⟨1, _⟩ => exact rhs0_dot_1 _ _)
  rw [el, er]
  rfl

/-! ## The whole-array product read at an index -/

/-- The reference product of the whole arrays at (i 0, i 1): the sum over k of x(i 0, k) · W(k, i 1). -/
theorem proj1_apply (x : Vec Ideal S50000x256 .f32) (w : Vec Ideal S256x128 .f32) (i : S50000x128.Idx) :
    Cert.Gcn.proj1 (F := Ideal) x w i
      = ∑ k : Fin 256, x (Cert.ReferenceIdeal.ReadP.lidx_main_v4 i k) * w (Cert.ReferenceIdeal.ReadP.ridx_main_v4 i k) :=
  Cert.ReferenceIdeal.ReadP.val_main_v4_apply x w i

/-! ## The windows' index maps over the grid -/

theorem hz0 : (![0, 0] : Fin 2 → Nat) = fun _ => 0 := funext fun a => by fin_cases a <;> rfl

/-- The printed index maps, decided over the ten points: the left operand's row block moves with the output's and
    its column block is 0; the right operand's block is always (0, 0); the output's column block is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

variable (V : (c : Dev nD) → (b : Ref sig .tc) → Buf (Elt Ideal) ((c : Thread nD τ).loc b))

/-! ## What a point writes back -/

/-- Window 0's block at point t read at a block index: the array at the block's place. -/
theorem iblk0_0_apply (c : Dev nD) (t : Fin cfg0.N) (y : S5000x256.Idx) :
    iblk0 V c 0 t y = V c main_arg0 (((cfg0.win 0).blk t).view.emb y) := rfl
/-- Window 1's block at point t read at a block index. -/
theorem iblk0_1_apply (c : Dev nD) (t : Fin cfg0.N) (y : S256x128.Idx) :
    iblk0 V c 1 t y = V c main_arg2 (((cfg0.win 1).blk t).view.emb y) := rfl

/-- Point t's left block at (row j 0, column k) is the array x at the place the reference's product reads for the
    output index under j in block t. -/
theorem emb0_lhs (t : Fin cfg0.N) (j : S5000x128.Idx) (k : Fin 256) :
    ((cfg0.win 0).blk t).view.emb (lidx0_blk j k)
      = Cert.ReferenceIdeal.ReadP.lidx_main_v4 (((cfg0.win 2).blk t).view.emb j) k := by
  obtain ⟨e0, e1, e2, e3, e4, e5⟩ := idx_facts0 t
  funext a; apply Fin.ext
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 256 + 1 * k.val = k.val; omega

/-- Point t's right block is the whole of W: at (row k, column j 1) it is W where the reference's product reads it. -/
theorem emb0_rhs (t : Fin cfg0.N) (j : S5000x128.Idx) (k : Fin 256) :
    ((cfg0.win 1).blk t).view.emb (ridx0_blk j k)
      = Cert.ReferenceIdeal.ReadP.ridx_main_v4 (((cfg0.win 2).blk t).view.emb j) k := by
  obtain ⟨e0, e1, e2, e3, e4, e5⟩ := idx_facts0 t
  funext a; apply Fin.ext
  match a with
  | ⟨0, _⟩ => show win0_1.index t (0 : Fin 2) * 256 + 1 * k.val = k.val; omega
  | ⟨1, _⟩ => show win0_1.index t (1 : Fin 2) * 128 + 1 * (j 1).val = win0_2.index t (1 : Fin 2) * 128 + 1 * (j 1).val; omega

/-- WHAT POINT t WRITES BACK is block t of the product of the whole arrays. -/
theorem flushed0_2_eq (c : Dev nD) (t : Fin cfg0.N) :
    (dat0 V c).flushed 2 t = ((cfg0.win 2).blk t).view.read (Elt Ideal) (Cert.Gcn.proj1 (F := Ideal) (V c main_arg0) (V c main_arg2)) := by
  show (cfg0.win 2).cut (grid0.coords t) ((dat0 V c).after 2 t) = _
  rw [after0_2]
  unfold out0_2
  rw [View.canon_unit_zero hz0]
  simp only [View.ld_unit_zero (S := S5000x256) hz0, View.ld_unit_zero (S := S256x128) hz0]
  funext j
  show k0_pay1 (F := Ideal) (iblk0 V c 0 t) (iblk0 V c 1 t) j = Cert.Gcn.proj1 (F := Ideal) (V c main_arg0) (V c main_arg2) (((cfg0.win 2).blk t).view.emb j)
  refine (pay0_apply (iblk0 V c 0 t) (iblk0 V c 1 t) j).trans ?_
  refine Eq.trans ?_ (proj1_apply (V c main_arg0) (V c main_arg2) (((cfg0.win 2).blk t).view.emb j)).symm
  refine Finset.sum_congr rfl fun k _ => ?_
  rw [iblk0_0_apply, iblk0_1_apply, emb0_lhs, emb0_rhs]

/-! ## The blocks tile the array -/

/-- An index of the array is in point t's block iff each coordinate is in the block's range on its axis. -/
theorem mem_blk0_2 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the array lies in the block of the point whose row block is r / 5000. -/
theorem cover0_2_arr (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The region's result -/

/-- After the ten points the result array is the product of the whole arrays. -/
theorem region0 (c : Dev nD) :
    (dat0 V c).arrAt 2 cfg0.N = Cert.Gcn.proj1 (F := Ideal) (V c main_arg0) (V c main_arg2) :=
  (dat0 V c).arrAt_eq_of_cover 2 _ (fun t _ => flushed0_2_eq V c t) cover0_2_arr

end Cert.KernelIdeal.RegionValue

end
-- ==== Proof.Region1.lean ====
/-
  Region 1: the bias row added to every row of a [50000, 128] array, then the maximum with zero, block by block.

  The region runs over 10 points. Point t takes rows 5000·t … 5000·t + 4999 of the array a and the one row b, lays b along the
  5000 rows, adds, takes the maximum with the zero word, and writes the [5000, 128] block back to the same rows of the result. Entry (i, j) of the
  result is therefore max(a(i, j) + b(0, j), 0): the same term as entry (i, j) of max(a + b, 0) computed on the
  whole arrays, because row i lies in exactly the block of point i / 5000 and the bias block is row 0 whatever the point.
  The identity is pointwise and uses nothing about the arithmetic; it is stated at the ideal instance.

  The steps: the payload and the whole-array function read at an index (`bias1_pay_apply`, `bias1_spec_apply`); what the body
  leaves in the output buffer read at an index (`bias1_out_apply`); the index maps over the ten points (`bias1_idx_facts`); each
  input block read where the output's block sits in the array (`bias1_read0`, `bias1_read1`); what point t writes back
  (`bias1_flushed`); the blocks cover the array (`bias1_mem_blk`, `bias1_cover`); the result (`region1`).
-/
import proofs.«171856_j73512660238643_1_alg».proof.Proof.Gen.KernelIdeal.Frame
import proofs.«171856_j73512660238643_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## One entry of the block's payload and of the whole-array function -/

/-- The payload at (r, q): the block's entry plus the row's entry q, against zero. The two shape casts are identities and the
    broadcast of the one-row block reads row 0. -/
theorem bias1_pay_apply (x0 : Vec Ideal S5000x128 .f32) (x1 : Vec Ideal S1x128 .f32) (j : S5000x128.Idx) :
    k1_pay1 (F := Ideal) x0 x1 j
      = FloatOps.maximumf (FloatOps.addf (x0 j) (x1 (ValueIdx.ix2 0 (j 1)))) (FloatOps.ofBits .f32 0x00000000#32) := by
  unfold k1_pay1
  simp only [shapeCast_self]
  unfold maximumf addf broadcast
  rw [broadcastTo_apply x1 broadcasts_S1x128_S5000x128 j (ValueIdx.ix2 0 (j 1)) (by
    intro a
    match a with
    | ⟨0, _⟩ => rfl
    | ⟨1, _⟩ => rfl)]

/-- The whole-array function at (i, q): the same term of the arrays' entries (i, q) and (0, q). -/
theorem bias1_spec_apply (a : FVec Ideal Cert.ReferenceIdeal.S50000x128 .f32) (b : FVec Ideal Cert.ReferenceIdeal.S1x128 .f32)
    (i : Cert.ReferenceIdeal.S50000x128.Idx) :
    Cert.Gcn.relu128 (F := Ideal) (Cert.Gcn.addRow128 a b) i
      = FloatOps.maximumf (FloatOps.addf (a i) (b (ValueIdx.ix2 0 (i 1)))) (FloatOps.ofBits .f32 0x00000000#32) := by
  unfold Cert.Gcn.relu128 Cert.Gcn.addRow128
  unfold maximumf addf
  rw [broadcastInDim_apply _ _ b i (ValueIdx.ix2 0 (i 1)) (by
    intro a
    match a with
    | ⟨0, _⟩ => rfl
    | ⟨1, _⟩ => rfl)]
  rfl

/-! ## What the body leaves in the output buffer -/

theorem bias1_hz : (![0, 0] : Fin 2 → Nat) = fun _ => 0 := funext fun a => by fin_cases a <;> rfl

/-- The body's one store covers the buffer and its loads read the whole input buffers, so the buffer ends at the payload
    of the two input blocks. -/
theorem bias1_out_apply (x0 : Vec Ideal S5000x128 .f32) (x1 : Vec Ideal S1x128 .f32) (j : S5000x128.Idx) :
    out1_2 x0 x1 j
      = (FloatOps.maximumf (FloatOps.addf (x0 j) (x1 (ValueIdx.ix2 0 (j 1)))) (FloatOps.ofBits .f32 0x00000000#32) : Ideal .f32) := by
  unfold out1_2
  rw [View.canon_unit_zero bias1_hz, View.ld_unit_zero (S := S5000x128) bias1_hz, View.ld_unit_zero (S := S1x128) bias1_hz]
  exact bias1_pay_apply x0 x1 j

/-! ## The index maps, and the input blocks read where the output's block sits -/

/-- Over the ten points: the array's and the result's block index is (t, 0), the bias's is (0, 0). -/
theorem bias1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Block t of the array a, at a block index, is a at the index where the result's block t holds that block index:
    the two windows move together, 5000·t + r on the rows and q on the columns. -/
theorem bias1_read0 (c : Dev nD) (t : Fin cfg1.N) (j : S5000x128.Idx) :
    iblk1 V c 0 t j = V c main_v45 (((cfg1.win 2).blk t).view.emb j) := by
  obtain ⟨e00, e01, e10, e11, e20, e21⟩ := bias1_idx_facts t
  show V c main_v45 (((cfg1.win 0).blk t).view.emb j) = _
  refine congrArg _ (funext fun a => Fin.ext ?_)
  match a with
  | ⟨0, _⟩ => show win1_0.index t (0 : Fin 2) * 5000 + 1 * (j 0).val = win1_2.index t (0 : Fin 2) * 5000 + 1 * (j 0).val; omega
  | ⟨1, _⟩ => show win1_0.index t (1 : Fin 2) * 128 + 1 * (j 1).val = win1_2.index t (1 : Fin 2) * 128 + 1 * (j 1).val; omega

/-- The bias window's block is the one row b whatever the point: its entry (0, q) is b at (0, the column of the
    result's index). -/
theorem bias1_read1 (c : Dev nD) (t : Fin cfg1.N) (j : S5000x128.Idx) :
    iblk1 V c 1 t (ValueIdx.ix2 0 (j 1)) = V c main_v46 (ValueIdx.ix2 0 ((((cfg1.win 2).blk t).view.emb j) 1)) := by
  obtain ⟨e00, e01, e10, e11, e20, e21⟩ := bias1_idx_facts t
  show V c main_v46 (((cfg1.win 1).blk t).view.emb (ValueIdx.ix2 0 (j 1))) = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * (j 1).val = win1_2.index t (1 : Fin 2) * 128 + 1 * (j 1).val; omega

/-! ## What point t writes back -/

/-- Point t writes block t of max(a + b, 0) of the whole arrays: entry by entry both sides are the same term. -/
theorem bias1_flushed (c : Dev nD) (t : Fin cfg1.N) :
    (dat1 V c).flushed 2 t = ((cfg1.win 2).blk t).view.read (Elt Ideal)
      (Cert.Gcn.relu128 (F := Ideal) (Cert.Gcn.addRow128 (V c main_v45) (V c main_v46))) := by
  show (cfg1.win 2).cut (grid1.coords t) ((dat1 V c).after 2 t) = _
  rw [after1_2]
  funext j
  show out1_2 (iblk1 V c 0 t) (iblk1 V c 1 t) j
    = (Cert.Gcn.relu128 (F := Ideal) (Cert.Gcn.addRow128 (V c main_v45) (V c main_v46))) (((cfg1.win 2).blk t).view.emb j)
  rw [bias1_out_apply (iblk1 V c 0 t) (iblk1 V c 1 t) j,
    bias1_spec_apply (V c main_v45) (V c main_v46) (((cfg1.win 2).blk t).view.emb j),
    bias1_read0 V c t j, bias1_read1 V c t j]

/-! ## The blocks cover the result -/

/-- An index of the result is in point t's block iff each coordinate is in the block's range on its axis. -/
theorem bias1_mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Row r of the result lies in the block of point r / 5000 (50000 = 10 · 5000), and every point writes back. -/
theorem bias1_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨e00, e01, e10, e11, e20, e21⟩ := bias1_idx_facts t
  refine ⟨t, flush1_2 t, ?_⟩
  rw [bias1_mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-! ## The region's result -/

/-- After the ten points the result array is max(a + b, 0) of the whole arrays, the bias row added to every row. -/
theorem region1 (c : Dev nD) :
    (dat1 V c).arrAt 2 cfg1.N = Cert.Gcn.relu128 (F := Ideal) (Cert.Gcn.addRow128 (V c main_v45) (V c main_v46)) :=
  (dat1 V c).arrAt_eq_of_cover 2 _ (fun t _ => bias1_flushed V c t) bias1_cover

end Cert.KernelIdeal.RegionValue

end
-- ==== Proof.Region2.lean ====
/-
  The second projection, h · W2, block by block.

  The kernel walks a grid of 10 points. Point t loads rows 5000·t … 5000·t + 4999 of h (a [5000, 128] block), the whole
  of W2 (a [128, 64] block), multiplies the two into a zero accumulator and writes the [5000, 64] product back to rows
  5000·t … 5000·t + 4999 of the result. On the extended reals the cast of the left block to its own shape and the
  narrowing of the operands are the identity and the product into zero is the plain sum, so entry (p, q) of block t is
  the sum over k of h(5000·t + p, k) · W2(k, q): entry (5000·t + p, q) of the product of the whole arrays. The ten row
  blocks tile the 50000 rows (row r is in block r / 5000), so after the last point the result array is the whole product.
-/
import proofs.«171856_j73512660238643_1_alg».proof.Proof.Gen.KernelIdeal.Frame
import proofs.«171856_j73512660238643_1_alg».proof.Proof.Spec
import proofs.«171856_j73512660238643_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

/-! ## The block product read at an index -/

theorem lhs2_dot_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs2_dot_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs2_dot_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs2_dot_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row (j 0) of the left block, column k. -/
abbrev lidx2_blk (j : S5000x64.Idx) (k : Fin 128) : S5000x128.Idx := fun a => match a with
  | ⟨0, _⟩ => ⟨(j 0).val, (j 0).isLt⟩
  | ⟨1, _⟩ => ⟨k.val, k.isLt⟩
/-- Row k of the right block, column (j 1). -/
abbrev ridx2_blk (j : S5000x64.Idx) (k : Fin 128) : S128x64.Idx := fun a => match a with
  | ⟨0, _⟩ => ⟨k.val, k.isLt⟩
  | ⟨1, _⟩ => ⟨(j 1).val, (j 1).isLt⟩

/-- The body's payload at (j 0, j 1): the cast to the block's own shape and the narrowing of the operands are the
    identity on the extended reals, and the product into zero is the sum over k of h(j 0, k) · W(k, j 1). -/
theorem pay2_apply (x0 : Vec Ideal S5000x128 .f32) (x1 : Vec Ideal S128x64 .f32) (j : S5000x64.Idx) :
    k2_pay1 (F := Ideal) x0 x1 j = ∑ k : Fin 128, x0 (lidx2_blk j k) * x1 (ridx2_blk j k) := by
  unfold k2_pay1
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lidx2_blk j k := funext fun a => Fin.ext (by
    match a with
    | ⟨0, _⟩ => exact lhs2_dot_0 _ _
    | ⟨1, _⟩ => exact (lhs2_dot_1 _ _).trans hk)
  have er : dot_S5000x128_S128x64_S5000x64_1_0_0_1_n_n.rhsIdx j ((ValueIdx.contrEquiv1 dot_S5000x128_S128x64_S5000x64_1_0_0_1_n_n 128 rfl rfl).symm k) = ridx2_blk j k := funext fun a => Fin.ext (by
    match a with
    | ⟨0, _⟩ => exact (rhs2_dot_0 _ _).trans hk
    | ⟨1, _⟩ => exact rhs2_dot_1 _ _)
  rw [el, er]
  have hs : shapeCast S5000x128 x0 shapeCasts_S5000x128_S5000x128 = x0 := shapeCast_self _ _
  exact congrArg (fun v : Vec Ideal S5000x128 .f32 => v (lidx2_blk j k) * x1 (ridx2_blk j k)) hs

/-! ## The whole-array product read at an index -/

/-- The reference product of the whole arrays at (i 0, i 1): the sum over k of h(i 0, k) · W(k, i 1), for any left
    operand h. -/
theorem proj2_apply (h : Vec Ideal S50000x128 .f32) (w : Vec Ideal S128x64 .f32) (i : S50000x64.Idx) :
    Cert.Gcn.proj2 (F := Ideal) h w i
      = ∑ k : Fin 128, h (Cert.ReferenceIdeal.ReadP.lidx_main_v50 i k) * w (Cert.ReferenceIdeal.ReadP.ridx_main_v50 i k) := by
  unfold Cert.Gcn.proj2
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = Cert.ReferenceIdeal.ReadP.lidx_main_v50 i k := funext fun a => Fin.ext (by
    match a with
    | ⟨0, _⟩ => exact Cert.ReferenceIdeal.ReadP.lhs_main_v50_0 _ _
    | ⟨1, _⟩ => exact (Cert.ReferenceIdeal.ReadP.lhs_main_v50_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = Cert.ReferenceIdeal.ReadP.ridx_main_v50 i k := funext fun a => Fin.ext (by
    match a with
    | ⟨0, _⟩ => exact (Cert.ReferenceIdeal.ReadP.rhs_main_v50_0 _ _).trans hk
    | ⟨1, _⟩ => exact Cert.ReferenceIdeal.ReadP.rhs_main_v50_1 _ _)
  rw [el, er]

/-! ## The windows' index maps over the grid -/

theorem hz2 : (![0, 0] : Fin 2 → Nat) = fun _ => 0 := funext fun a => by fin_cases a <;> rfl

/-- The printed index maps, decided over the ten points: the left operand's row block moves with the output's and
    its column block is 0; the right operand's block is always (0, 0); the output's column block is 0. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block of the output is some point's. -/
theorem idx_onto2 : ∀ (q0 : Fin 10), ∃ t : Fin cfg2.N, win2_2.index t = ![q0.val, 0] :=
  (by decide +kernel : ∀ (q0 : Fin 10), ∃ t : Fin grid2.N, win2_2.index t = ![q0.val, 0])

variable (V : (c : Dev nD) → (b : Ref sig .tc) → Buf (Elt Ideal) ((c : Thread nD τ).loc b))

/-! ## What a point writes back -/

/-- Window 0's block at point t read at a block index: the array at the block's place. -/
theorem iblk2_0_apply (c : Dev nD) (t : Fin cfg2.N) (y : S5000x128.Idx) :
    iblk2 V c 0 t y = V c main_v47 (((cfg2.win 0).blk t).view.emb y) := rfl
/-- Window 1's block at point t read at a block index. -/
theorem iblk2_1_apply (c : Dev nD) (t : Fin cfg2.N) (y : S128x64.Idx) :
    iblk2 V c 1 t y = V c main_arg4 (((cfg2.win 1).blk t).view.emb y) := rfl

/-- Point t's left block at (row j 0, column k) is the array h at the place the reference's product reads for the
    output index under j in block t. -/
theorem emb2_lhs (t : Fin cfg2.N) (j : S5000x64.Idx) (k : Fin 128) :
    ((cfg2.win 0).blk t).view.emb (lidx2_blk j k)
      = Cert.ReferenceIdeal.ReadP.lidx_main_v50 (((cfg2.win 2).blk t).view.emb j) k := by
  obtain ⟨e0, e1, e2, e3, e4, e5⟩ := idx_facts2 t
  funext a; apply Fin.ext
  match a with
  | ⟨0, _⟩ => show win2_0.index t (0 : Fin 2) * 5000 + 1 * (j 0).val = win2_2.index t (0 : Fin 2) * 5000 + 1 * (j 0).val; omega
  | ⟨1, _⟩ => show win2_0.index t (1 : Fin 2) * 128 + 1 * k.val = k.val; omega

/-- Point t's right block is the whole of W: at (row k, column j 1) it is W where the reference's product reads it. -/
theorem emb2_rhs (t : Fin cfg2.N) (j : S5000x64.Idx) (k : Fin 128) :
    ((cfg2.win 1).blk t).view.emb (ridx2_blk j k)
      = Cert.ReferenceIdeal.ReadP.ridx_main_v50 (((cfg2.win 2).blk t).view.emb j) k := by
  obtain ⟨e0, e1, e2, e3, e4, e5⟩ := idx_facts2 t
  funext a; apply Fin.ext
  match a with
  | ⟨0, _⟩ => show win2_1.index t (0 : Fin 2) * 128 + 1 * k.val = k.val; omega
  | ⟨1, _⟩ => show win2_1.index t (1 : Fin 2) * 64 + 1 * (j 1).val = win2_2.index t (1 : Fin 2) * 64 + 1 * (j 1).val; omega

/-- WHAT POINT t WRITES BACK is block t of the product of the whole arrays. -/
theorem flushed2_2_eq (c : Dev nD) (t : Fin cfg2.N) :
    (dat2 V c).flushed 2 t = ((cfg2.win 2).blk t).view.read (Elt Ideal) (Cert.Gcn.proj2 (F := Ideal) (V c main_v47) (V c main_arg4)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x64) hz2]
  funext j
  show k2_pay1 (F := Ideal) (iblk2 V c 0 t) (iblk2 V c 1 t) j = Cert.Gcn.proj2 (F := Ideal) (V c main_v47) (V c main_arg4) (((cfg2.win 2).blk t).view.emb j)
  refine (pay2_apply (iblk2 V c 0 t) (iblk2 V c 1 t) j).trans ?_
  refine Eq.trans ?_ (proj2_apply (V c main_v47) (V c main_arg4) (((cfg2.win 2).blk t).view.emb j)).symm
  refine Finset.sum_congr rfl fun k _ => ?_
  rw [iblk2_0_apply, iblk2_1_apply, emb2_lhs, emb2_rhs]

/-! ## The blocks tile the array -/

/-- An index of the array is in point t's block iff each coordinate is in the block's range on its axis. -/
theorem mem_blk2_2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Row r of the array lies in the block of the point whose row block is r / 5000. -/
theorem cover2_2_arr (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2_2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-! ## The region's result -/

/-- After the ten points the result array is the product of the whole arrays. -/
theorem region2 (c : Dev nD) :
    (dat2 V c).arrAt 2 cfg2.N = Cert.Gcn.proj2 (F := Ideal) (V c main_v47) (V c main_arg4) :=
  (dat2 V c).arrAt_eq_of_cover 2 _ (fun t _ => flushed2_2_eq V c t) cover2_2_arr

end Cert.KernelIdeal.RegionValue

end
-- ==== Proof.Region3.lean ====
/-
  Region 3: the bias row added to every row of a [50000, 64] array, block by block.

  The region runs over 10 points. Point t takes rows 5000·t … 5000·t + 4999 of the array a and the one row b, lays b along
  the 5000 rows, adds, and writes the [5000, 64] block back to the same rows of the result. Entry (i, j) of the result is
  therefore a(i, j) + b(0, j): the same term as entry (i, j) of a + b computed on the whole arrays, because row i lies in
  exactly the block of point i / 5000 and the bias block is row 0 whatever the point. The identity is pointwise and uses
  nothing about the addition; it is stated at the ideal instance.

  The steps: the payload and the whole-array sum read at an index (`bias3_pay_apply`, `bias3_spec_apply`); what the body
  leaves in the output buffer read at an index (`bias3_out_apply`); the index maps over the ten points (`bias3_idx_facts`);
  each input block read where the output's block sits in the array (`bias3_read0`, `bias3_read1`); what point t writes
  back (`bias3_flushed`); the blocks cover the array (`bias3_mem_blk`, `bias3_cover`); the result (`region3`).
-/
import proofs.«171856_j73512660238643_1_alg».proof.Proof.Gen.KernelIdeal.Frame
import proofs.«171856_j73512660238643_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## One entry of the block's payload and of the whole-array sum -/

/-- The payload at (r, q): the block's entry plus the row's entry q. The two shape casts are identities and the
    broadcast of the one-row block reads row 0. -/
theorem bias3_pay_apply (x0 : Vec Ideal S5000x64 .f32) (x1 : Vec Ideal S1x64 .f32) (j : S5000x64.Idx) :
    k3_pay1 (F := Ideal) x0 x1 j = FloatOps.addf (x0 j) (x1 (ValueIdx.ix2 0 (j 1))) := by
  unfold k3_pay1
  simp only [shapeCast_self]
  unfold addf
  rw [broadcastTo_apply x1 broadcasts_S1x64_S5000x64 j (ValueIdx.ix2 0 (j 1)) (by
    intro a
    match a with
    | ⟨0, _⟩ => rfl
    | ⟨1, _⟩ => rfl)]

/-- The whole-array sum at (i, q): the same term of the arrays' entries (i, q) and (0, q). -/
theorem bias3_spec_apply (a : FVec Ideal Cert.ReferenceIdeal.S50000x64 .f32) (b : FVec Ideal Cert.ReferenceIdeal.S1x64 .f32)
    (i : Cert.ReferenceIdeal.S50000x64.Idx) :
    Cert.Gcn.addRow64 (F := Ideal) a b i = FloatOps.addf (a i) (b (ValueIdx.ix2 0 (i 1))) := by
  unfold Cert.Gcn.addRow64
  unfold addf
  rw [broadcastInDim_apply _ _ b i (ValueIdx.ix2 0 (i 1)) (by
    intro a
    match a with
    | ⟨0, _⟩ => rfl
    | ⟨1, _⟩ => rfl)]

/-! ## What the body leaves in the output buffer -/

theorem bias3_hz : (![0, 0] : Fin 2 → Nat) = fun _ => 0 := funext fun a => by fin_cases a <;> rfl

/-- The body's one store covers the buffer and its loads read the whole input buffers, so the buffer ends at the payload
    of the two input blocks. -/
theorem bias3_out_apply (x0 : Vec Ideal S5000x64 .f32) (x1 : Vec Ideal S1x64 .f32) (j : S5000x64.Idx) :
    out3_2 x0 x1 j = (FloatOps.addf (x0 j) (x1 (ValueIdx.ix2 0 (j 1))) : Ideal .f32) := by
  unfold out3_2
  rw [View.canon_unit_zero bias3_hz, View.ld_unit_zero (S := S5000x64) bias3_hz, View.ld_unit_zero (S := S1x64) bias3_hz]
  exact bias3_pay_apply x0 x1 j

/-! ## The index maps, and the input blocks read where the output's block sits -/

/-- Over the ten points: the array's and the result's block index is (t, 0), the bias's is (0, 0). -/
theorem bias3_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block t of the array a, at a block index, is a at the index where the result's block t holds that block index:
    the two windows move together, 5000·t + r on the rows and q on the columns. -/
theorem bias3_read0 (c : Dev nD) (t : Fin cfg3.N) (j : S5000x64.Idx) :
    iblk3 V c 0 t j = V c main_v61 (((cfg3.win 2).blk t).view.emb j) := by
  obtain ⟨e00, e01, e10, e11, e20, e21⟩ := bias3_idx_facts t
  show V c main_v61 (((cfg3.win 0).blk t).view.emb j) = _
  refine congrArg _ (funext fun a => Fin.ext ?_)
  match a with
  | ⟨0, _⟩ => show win3_0.index t (0 : Fin 2) * 5000 + 1 * (j 0).val = win3_2.index t (0 : Fin 2) * 5000 + 1 * (j 0).val; omega
  | ⟨1, _⟩ => show win3_0.index t (1 : Fin 2) * 64 + 1 * (j 1).val = win3_2.index t (1 : Fin 2) * 64 + 1 * (j 1).val; omega

/-- The bias window's block is the one row b whatever the point: its entry (0, q) is b at (0, the column of the
    result's index). -/
theorem bias3_read1 (c : Dev nD) (t : Fin cfg3.N) (j : S5000x64.Idx) :
    iblk3 V c 1 t (ValueIdx.ix2 0 (j 1)) = V c main_v62 (ValueIdx.ix2 0 ((((cfg3.win 2).blk t).view.emb j) 1)) := by
  obtain ⟨e00, e01, e10, e11, e20, e21⟩ := bias3_idx_facts t
  show V c main_v62 (((cfg3.win 1).blk t).view.emb (ValueIdx.ix2 0 (j 1))) = _
  refine congrArg _ (funext fun a => Fin.ext ?_)
  match a with
  | ⟨0, _⟩ => show win3_1.index t (0 : Fin 2) * 1 + 1 * 0 = 0; omega
  | ⟨1, _⟩ => show win3_1.index t (1 : Fin 2) * 64 + 1 * (j 1).val = win3_2.index t (1 : Fin 2) * 64 + 1 * (j 1).val; omega

/-! ## What point t writes back -/

/-- Point t writes block t of a + b of the whole arrays: entry by entry both sides are the same sum. -/
theorem bias3_flushed (c : Dev nD) (t : Fin cfg3.N) :
    (dat3 V c).flushed 2 t = ((cfg3.win 2).blk t).view.read (Elt Ideal)
      (Cert.Gcn.addRow64 (F := Ideal) (V c main_v61) (V c main_v62)) := by
  show (cfg3.win 2).cut (grid3.coords t) ((dat3 V c).after 2 t) = _
  rw [after3_2]
  funext j
  show out3_2 (iblk3 V c 0 t) (iblk3 V c 1 t) j
    = (Cert.Gcn.addRow64 (F := Ideal) (V c main_v61) (V c main_v62)) (((cfg3.win 2).blk t).view.emb j)
  rw [bias3_out_apply (iblk3 V c 0 t) (iblk3 V c 1 t) j,
    bias3_spec_apply (V c main_v61) (V c main_v62) (((cfg3.win 2).blk t).view.emb j),
    bias3_read0 V c t j, bias3_read1 V c t j]

/-! ## The blocks cover the result -/

/-- An index of the result is in point t's block iff each coordinate is in the block's range on its axis. -/
theorem bias3_mem_blk (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v63).slice (win3_2.rect t)).set ↔ _
  rw [View.set_slice_whole, Rect.mem_set_unit]
  exact Iff.rfl

/-- Row r of the result lies in the block of point r / 5000 (50000 = 10 · 5000), and every point writes back. -/
theorem bias3_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by rw [show cfg3.N = 10 from N_3]; omega⟩, rfl⟩
  obtain ⟨e00, e01, e10, e11, e20, e21⟩ := bias3_idx_facts t
  refine ⟨t, flush3_2 t, ?_⟩
  rw [bias3_mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-! ## The region's result -/

/-- After the ten points the result array is a + b of the whole arrays, the bias row added to every row. -/
theorem region3 (c : Dev nD) :
    (dat3 V c).arrAt 2 cfg3.N = Cert.Gcn.addRow64 (F := Ideal) (V c main_v61) (V c main_v62) :=
  (dat3 V c).arrAt_eq_of_cover 2 _ (fun t _ => bias3_flushed V c t) bias3_cover

end Cert.KernelIdeal.RegionValue

end
-- ==== Proof.KernelChain.lean ====
/-
  What the kernel program's result array holds, as the network of Proof/Spec.lean of the six arguments.

  @main is nine segments: three stretches of host operations (the pairs' sources and targets, the degrees, dis and the
  norms), the first matrix product on the grid, a stretch (gather the sources' rows, scale by the norm, add into the
  targets' rows; the bias as a one-row matrix), the bias-and-relu region, the second matrix product, the same stretch
  at width 64, and the last bias region. The generated frame names the buffer contents at each boundary (Gen.W0 …
  Gen.W9): a host stretch's as the fold of its operations over the boundary before, a region's as the boundary before
  with the region's arrays at what its write-backs leave. Reading the fold at a buffer gives the operations' composed
  term, which is, literally, the specification's function (src, dst, norm, aggr128, aggr64); a region's result array is
  the whole-array function its module proves (Region0 … Region3); every other buffer is carried unchanged from the
  boundary before. Walking the nine boundaries in order gives the result array as Gcn.out of the launch contents of
  the arguments.
-/
import proofs.«171856_j73512660238643_1_alg».proof.Proof.Gen.KernelIdeal.Frame
import proofs.«171856_j73512660238643_1_alg».proof.Proof.Spec
import proofs.«171856_j73512660238643_1_alg».proof.Proof.Region0
import proofs.«171856_j73512660238643_1_alg».proof.Proof.Region1
import proofs.«171856_j73512660238643_1_alg».proof.Proof.Region2
import proofs.«171856_j73512660238643_1_alg».proof.Proof.Region3
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-! ## A vector as a one-row matrix: the kernel program's reshape is the reference's broadcast along axis 1 -/

section Row
variable {α : Type}

/-- Entry (0, j) of both is entry j of the vector (width 128). -/
theorem reshape_row128 (b : (⟨1, ![128]⟩ : Shape).Idx → α) (h : (⟨1, ![128]⟩ : Shape).ShapeCasts ⟨2, ![1, 128]⟩)
    (hd : (⟨1, ![128]⟩ : Shape).BroadcastsInDim ⟨2, ![1, 128]⟩ ![1]) :
    shapeCast ⟨2, ![1, 128]⟩ b h = broadcastInDim ⟨2, ![1, 128]⟩ ![1] hd b := by
  funext i
  have e2 := shapeCast_apply b h i (ValueIdx.ix1 (i 1 : Fin 128)) (by
    rw [Shape.rowMajor_val_two, Shape.rowMajor_val_one]
    have h0 : (i 0).val < 1 := (i 0).isLt
    show (i 1).val = (i 0).val * 128 + (i 1).val; omega)
  have e3 := broadcastInDim_apply ![1] hd b i (ValueIdx.ix1 (i 1 : Fin 128)) (by
    intro a
    match a with
    | ⟨0, _⟩ => rfl)
  exact e2.trans e3.symm

/-- Entry (0, j) of both is entry j of the vector (width 64). -/
theorem reshape_row64 (b : (⟨1, ![64]⟩ : Shape).Idx → α) (h : (⟨1, ![64]⟩ : Shape).ShapeCasts ⟨2, ![1, 64]⟩)
    (hd : (⟨1, ![64]⟩ : Shape).BroadcastsInDim ⟨2, ![1, 64]⟩ ![1]) :
    shapeCast ⟨2, ![1, 64]⟩ b h = broadcastInDim ⟨2, ![1, 64]⟩ ![1] hd b := by
  funext i
  have e2 := shapeCast_apply b h i (ValueIdx.ix1 (i 1 : Fin 64)) (by
    rw [Shape.rowMajor_val_two, Shape.rowMajor_val_one]
    have h0 : (i 0).val < 1 := (i 0).isLt
    show (i 1).val = (i 0).val * 64 + (i 1).val; omega)
  have e3 := broadcastInDim_apply ![1] hd b i (ValueIdx.ix1 (i 1 : Fin 64)) (by
    intro a
    match a with
    | ⟨0, _⟩ => rfl)
  exact e2.trans e3.symm

end Row

/-! ## Before the first region (any float instance): the pairs, the norms, the arguments -/

section Host
variable {F : FTy → Type} [FloatOps F]
variable (m : (ℓ : Loc nD τ sig) → Buf (Elt F) ℓ) (ρ : Dev nD → PrngReg)

theorem W3_src (c : Dev nD) : W3 m ρ c (Proc.devRef .tc main_v5) = Cert.Gcn.src (m ((c : Thread nD τ).loc main_arg1)) := by
  show StableHlo.after hostOps0_2 (StableHlo.after hostOps0_1 (StableHlo.after hostOps0 (W0 m ρ c))) (Proc.devRef .tc main_v5) = _
  after_results_simp
  rfl

theorem W3_dst (c : Dev nD) : W3 m ρ c (Proc.devRef .tc main_v6) = Cert.Gcn.dst (m ((c : Thread nD τ).loc main_arg1)) := by
  show StableHlo.after hostOps0_2 (StableHlo.after hostOps0_1 (StableHlo.after hostOps0 (W0 m ρ c))) (Proc.devRef .tc main_v6) = _
  after_results_simp
  rfl

theorem W3_norm (c : Dev nD) : W3 m ρ c (Proc.devRef .tc main_v31) = Cert.Gcn.norm (F := F) (m ((c : Thread nD τ).loc main_arg1)) := by
  show StableHlo.after hostOps0_2 (StableHlo.after hostOps0_1 (StableHlo.after hostOps0 (W0 m ρ c))) (Proc.devRef .tc main_v31) = _
  after_results_simp
  rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

end Host

/-! ## Through the regions, at the ideal values -/

variable (m : (ℓ : Loc nD τ sig) → Buf (Elt Ideal) ℓ) (ρ : Dev nD → PrngReg)

/-! ### The first product's exit: x · W1; the pairs, the norms and the later arguments carried -/

theorem W4_proj (c : Dev nD) : W4 m ρ c (Proc.devRef .tc main_v32)
    = Cert.Gcn.proj1 (F := Ideal) (m ((c : Thread nD τ).loc main_arg0)) (m ((c : Thread nD τ).loc main_arg2)) := by
  refine (W4_arr m ρ c 2).trans ((RegionValue.region0 (V3 m ρ) c).trans ?_)
  exact congrArg₂ (Cert.Gcn.proj1 (F := Ideal)) (W3_arg0 m ρ c) (W3_arg2 m ρ c)

theorem W4_src (c : Dev nD) : W4 m ρ c (Proc.devRef .tc main_v5) = Cert.Gcn.src (m ((c : Thread nD τ).loc main_arg1)) :=
  (W4_of_ne m ρ c main_v5 (by decide)).trans (W3_src m ρ c)
theorem W4_dst (c : Dev nD) : W4 m ρ c (Proc.devRef .tc main_v6) = Cert.Gcn.dst (m ((c : Thread nD τ).loc main_arg1)) :=
  (W4_of_ne m ρ c main_v6 (by decide)).trans (W3_dst m ρ c)
theorem W4_norm (c : Dev nD) : W4 m ρ c (Proc.devRef .tc main_v31) = Cert.Gcn.norm (F := Ideal) (m ((c : Thread nD τ).loc main_arg1)) :=
  (W4_of_ne m ρ c main_v31 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ### The first aggregation, and the bias as a row -/

theorem W5_aggr (c : Dev nD) : W5 m ρ c (Proc.devRef .tc main_v45)
    = Cert.Gcn.aggr128 (F := Ideal) (Cert.Gcn.proj1 (m ((c : Thread nD τ).loc main_arg0)) (m ((c : Thread nD τ).loc main_arg2)))
        (m ((c : Thread nD τ).loc main_arg1)) := by
  show StableHlo.after hostOps1 (W4 m ρ c) (Proc.devRef .tc main_v45) = _
  after_results_simp
  rw [W4_proj, W4_src, W4_dst, W4_norm]
  rfl

theorem W5_row (c : Dev nD) : W5 m ρ c (Proc.devRef .tc main_v46) = Cert.Gcn.row128 (F := Ideal) (m ((c : Thread nD τ).loc main_arg3)) := by
  show StableHlo.after hostOps1 (W4 m ρ c) (Proc.devRef .tc main_v46) = _
  after_results_simp
  rw [W4_arg3]
  exact reshape_row128 _ _ _

theorem W5_src (c : Dev nD) : W5 m ρ c (Proc.devRef .tc main_v5) = Cert.Gcn.src (m ((c : Thread nD τ).loc main_arg1)) := by
  show StableHlo.after hostOps1 (W4 m ρ c) (Proc.devRef .tc main_v5) = _
  after_results_simp
  exact W4_src m ρ c
theorem W5_dst (c : Dev nD) : W5 m ρ c (Proc.devRef .tc main_v6) = Cert.Gcn.dst (m ((c : Thread nD τ).loc main_arg1)) := by
  show StableHlo.after hostOps1 (W4 m ρ c) (Proc.devRef .tc main_v6) = _
  after_results_simp
  exact W4_dst m ρ c
theorem W5_norm (c : Dev nD) : W5 m ρ c (Proc.devRef .tc main_v31) = Cert.Gcn.norm (F := Ideal) (m ((c : Thread nD τ).loc main_arg1)) := by
  show StableHlo.after hostOps1 (W4 m ρ c) (Proc.devRef .tc main_v31) = _
  after_results_simp
  exact W4_norm m ρ c
theorem W5_arg4 (c : Dev nD) : W5 m ρ c (Proc.devRef .tc main_arg4) = m ((c : Thread nD τ).loc main_arg4) := by
  show StableHlo.after hostOps1 (W4 m ρ c) (Proc.devRef .tc main_arg4) = _
  after_results_simp
  exact W4_arg4 m ρ c
theorem W5_arg5 (c : Dev nD) : W5 m ρ c (Proc.devRef .tc main_arg5) = m ((c : Thread nD τ).loc main_arg5) := by
  show StableHlo.after hostOps1 (W4 m ρ c) (Proc.devRef .tc main_arg5) = _
  after_results_simp
  exact W4_arg5 m ρ c

/-! ### The hidden layer, and the second product -/

theorem W6_hidden (c : Dev nD) : W6 m ρ c (Proc.devRef .tc main_v47)
    = Cert.Gcn.hidden (F := Ideal) (m ((c : Thread nD τ).loc main_arg0)) (m ((c : Thread nD τ).loc main_arg1))
        (m ((c : Thread nD τ).loc main_arg2)) (m ((c : Thread nD τ).loc main_arg3)) := by
  refine (W6_arr m ρ c 2).trans ((RegionValue.region1 (V5 m ρ) c).trans ?_)
  exact congrArg₂ (fun a b => Cert.Gcn.relu128 (F := Ideal) (Cert.Gcn.addRow128 a b)) (W5_aggr m ρ c) (W5_row m ρ c)

theorem W6_arg4 (c : Dev nD) : W6 m ρ c (Proc.devRef .tc main_arg4) = m ((c : Thread nD τ).loc main_arg4) :=
  (W6_of_ne m ρ c main_arg4 (by decide)).trans (W5_arg4 m ρ c)

theorem W7_proj (c : Dev nD) : W7 m ρ c (Proc.devRef .tc main_v48)
    = Cert.Gcn.proj2 (F := Ideal) (Cert.Gcn.hidden (m ((c : Thread nD τ).loc main_arg0)) (m ((c : Thread nD τ).loc main_arg1))
        (m ((c : Thread nD τ).loc main_arg2)) (m ((c : Thread nD τ).loc main_arg3))) (m ((c : Thread nD τ).loc main_arg4)) := by
  refine (W7_arr m ρ c 2).trans ((RegionValue.region2 (V6 m ρ) c).trans ?_)
  exact congrArg₂ (Cert.Gcn.proj2 (F := Ideal)) (W6_hidden m ρ c) (W6_arg4 m ρ c)

theorem W7_src (c : Dev nD) : W7 m ρ c (Proc.devRef .tc main_v5) = Cert.Gcn.src (m ((c : Thread nD τ).loc main_arg1)) :=
  (W7_of_ne m ρ c main_v5 (by decide)).trans ((W6_of_ne m ρ c main_v5 (by decide)).trans (W5_src m ρ c))
theorem W7_dst (c : Dev nD) : W7 m ρ c (Proc.devRef .tc main_v6) = Cert.Gcn.dst (m ((c : Thread nD τ).loc main_arg1)) :=
  (W7_of_ne m ρ c main_v6 (by decide)).trans ((W6_of_ne m ρ c main_v6 (by decide)).trans (W5_dst m ρ c))
theorem W7_norm (c : Dev nD) : W7 m ρ c (Proc.devRef .tc main_v31) = Cert.Gcn.norm (F := Ideal) (m ((c : Thread nD τ).loc main_arg1)) :=
  (W7_of_ne m ρ c main_v31 (by decide)).trans ((W6_of_ne m ρ c main_v31 (by decide)).trans (W5_norm m ρ c))
theorem W7_arg5 (c : Dev nD) : W7 m ρ c (Proc.devRef .tc main_arg5) = m ((c : Thread nD τ).loc main_arg5) :=
  (W7_of_ne m ρ c main_arg5 (by decide)).trans ((W6_of_ne m ρ c main_arg5 (by decide)).trans (W5_arg5 m ρ c))

/-! ### The second aggregation, its bias row, and the result -/

theorem W8_aggr (c : Dev nD) : W8 m ρ c (Proc.devRef .tc main_v61)
    = Cert.Gcn.aggr64 (F := Ideal) (Cert.Gcn.proj2 (Cert.Gcn.hidden (m ((c : Thread nD τ).loc main_arg0)) (m ((c : Thread nD τ).loc main_arg1))
        (m ((c : Thread nD τ).loc main_arg2)) (m ((c : Thread nD τ).loc main_arg3))) (m ((c : Thread nD τ).loc main_arg4)))
        (m ((c : Thread nD τ).loc main_arg1)) := by
  show StableHlo.after hostOps3 (W7 m ρ c) (Proc.devRef .tc main_v61) = _
  after_results_simp
  rw [W7_proj, W7_src, W7_dst, W7_norm]
  rfl

theorem W8_row (c : Dev nD) : W8 m ρ c (Proc.devRef .tc main_v62) = Cert.Gcn.row64 (F := Ideal) (m ((c : Thread nD τ).loc main_arg5)) := by
  show StableHlo.after hostOps3 (W7 m ρ c) (Proc.devRef .tc main_v62) = _
  after_results_simp
  rw [W7_arg5]
  exact reshape_row64 _ _ _

/-- THE RESULT ARRAY after the run: the network of the launch contents of the six arguments. -/
theorem W9_out (c : Dev nD) : W9 m ρ c (Proc.devRef .tc main_v63)
    = Cert.Gcn.out (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (W9_arr m ρ c 2).trans ((RegionValue.region3 (V8 m ρ) c).trans ?_)
  exact congrArg₂ (Cert.Gcn.addRow64 (F := Ideal)) (W8_aggr m ρ c) (W8_row m ρ c)

end Cert.KernelIdeal.Chain

end
-- ==== Proof.RefBridge.lean ====
/-
  The reference's result is the network of Proof/Spec.lean.

  The reference's program is the specification spelt out operation by operation: each of its 125 host operations is
  one stage of the read-back run (val_main_vN), and unfolding the stages gives, literally, the functions of the
  specification: proj1 is its first dot_general, aggr128 its first gather / multiply / scatter-add group, and so on; the
  second layer recomputes the pair indices, the degrees and the norms with the same operations, so the second
  group's norm is the first one's again.
-/
import proofs.«171856_j73512660238643_1_alg».proof.Proof.RefRead
import proofs.«171856_j73512660238643_1_alg».proof.Proof.Spec

noncomputable section

namespace Cert.Gcn

open Idealize.ShloMosaic Cert.ReferenceIdeal Cert.ReferenceIdeal.ReadP

variable {F : FTy → Type} [FloatOps F]

/-- The reference's last stage, as a function of the six arguments, is out. -/
theorem ref_out (x0 : FVec F S50000x256 .f32) (x1 : IVec S2x500000 32) (x2 : FVec F S256x128 .f32) (x3 : FVec F S128 .f32)
    (x4 : FVec F S128x64 .f32) (x5 : FVec F S64 .f32) :
    val_main_v94 (F := F) x0 x1 x2 x3 x4 x5 = out x0 x1 x2 x3 x4 x5 := by
  rfl

end Cert.Gcn

end
-- ==== Proof.lean ====
/-
  The certificate of a two-layer graph convolution: a kernel program of four grid regions among host operations,
  against a reference of host operations only.

  Both programs compute   out = aggr (relu (aggr (x · W1) + b1) · W2) + b2   (Proof/Spec.lean), where aggr gathers the
  rows of its operand at the edges' sources (and the self loops), scales each by the symmetric degree normalisation
  and adds it into the row of the edge's target. The reference does every step with a host operation; the kernel
  program does the two matrix products and the two bias steps on a grid of ten row blocks and leaves the gathers and
  scatter-adds to the same host operations. On the extended reals a block product into a zero accumulator is the
  block of the whole product (the narrowing of the operands is the identity there), a one-row bias broadcast down a
  block's rows is the block of the whole broadcast, and the ten row blocks tile the 50000 rows: so each region's result
  array is the reference's corresponding whole-array operation (Proof/Region0 … Region3), the host stretches between
  the regions are the reference's own operations (Proof/KernelChain), and the reference's composed term is the same
  function by unfolding (Proof/RefBridge). No law of arithmetic beyond 0 + s = s is used, so the finiteness of the
  inputs is never opened.

  The three frames: the kernel programs' are the generated frames of the four regions; the reference's is its run
  with the result dropped. The idealization rewrote no operation, so the preserves conjunct is trivial.
-/
import proofs.«171856_j73512660238643_1_alg».proof.Defs
import proofs.«171856_j73512660238643_1_alg».proof.Proof.Gen.Kernel
import proofs.«171856_j73512660238643_1_alg».proof.Proof.Gen.Kernel.Skeleton
import proofs.«171856_j73512660238643_1_alg».proof.Proof.Gen.Kernel.Launch
import proofs.«171856_j73512660238643_1_alg».proof.Proof.Gen.Kernel.Points
import proofs.«171856_j73512660238643_1_alg».proof.Proof.Gen.Kernel.Frame
import proofs.«171856_j73512660238643_1_alg».proof.Proof.Gen.KernelIdeal
import proofs.«171856_j73512660238643_1_alg».proof.Proof.Gen.KernelIdeal.Skeleton
import proofs.«171856_j73512660238643_1_alg».proof.Proof.Gen.KernelIdeal.Launch
import proofs.«171856_j73512660238643_1_alg».proof.Proof.Gen.KernelIdeal.Points
import proofs.«171856_j73512660238643_1_alg».proof.Proof.Gen.KernelIdeal.Frame
import proofs.«171856_j73512660238643_1_alg».proof.Proof.Gen.ReferenceIdeal
import proofs.«171856_j73512660238643_1_alg».proof.Proof.Gen.Pre_finite_inputs
import proofs.«171856_j73512660238643_1_alg».proof.Proof.KernelRun
import proofs.«171856_j73512660238643_1_alg».proof.Proof.KernelChain
import proofs.«171856_j73512660238643_1_alg».proof.Proof.RefRun
import proofs.«171856_j73512660238643_1_alg».proof.Proof.RefRead
import proofs.«171856_j73512660238643_1_alg».proof.Proof.RefBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result array at Gcn.out of the arguments: the kernel program's by the walk through its
    nine segments, the reference's by unfolding its composed term; the arguments agree by hypothesis. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.W9_out m ρ c), (h c).2⟩)
      (Cert.KernelIdeal.GenRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v94_eq, Cert.Gcn.ref_out, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
